-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S2x1x256 : Shape := ⟨3, ![2, 1, 256]⟩
abbrev S2x64x256 : Shape := ⟨3, ![2, 64, 256]⟩
abbrev S4096x256 : Shape := ⟨2, ![4096, 256]⟩
abbrev S4096x64 : Shape := ⟨2, ![4096, 64]⟩
abbrev S1x1x256 : Shape := ⟨3, ![1, 1, 256]⟩
abbrev S1x64x256 : Shape := ⟨3, ![1, 64, 256]⟩
abbrev S1x256 : Shape := ⟨2, ![1, 256]⟩
abbrev S64x256 : Shape := ⟨2, ![64, 256]⟩
abbrev S256 : Shape := ⟨1, ![256]⟩
abbrev S_ : Shape := ⟨0, ![]⟩

abbrev nBuf : Space → Nat
  | .hbm => 21
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x64, .i32⟩
  | .hbm, ⟨4, _⟩ => ⟨S8192x64, .i32⟩
  | .hbm, ⟨5, _⟩ => ⟨S8192x64, .i32⟩
  | .hbm, ⟨6, _⟩ => ⟨S8192x64, .i1⟩
  | .hbm, ⟨7, _⟩ => ⟨S8192x64, .bf16⟩
  | .hbm, ⟨8, _⟩ => ⟨S2x1x256, .f32⟩
  | .hbm, ⟨9, _⟩ => ⟨S2x64x256, .f32⟩
  | .hbm, ⟨10, _⟩ => ⟨S_, .f32⟩
  | .hbm, ⟨11, _⟩ => ⟨S1x256, .f32⟩
  | .hbm, ⟨12, _⟩ => ⟨S_, .f32⟩
  | .hbm, ⟨13, _⟩ => ⟨S64x256, .f32⟩
  | .hbm, ⟨14, _⟩ => ⟨S1x256, .f32⟩
  | .hbm, ⟨15, _⟩ => ⟨S_, .f32⟩
  | .hbm, ⟨16, _⟩ => ⟨S_, .f32⟩
  | .hbm, ⟨17, _⟩ => ⟨S64x256, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x64, .bf16⟩
  | .local _ .vmem, ⟨3, _⟩ => ⟨S4096x64, .bf16⟩
  | .local _ .vmem, ⟨4, _⟩ => ⟨S1x1x256, .f32⟩
  | .local _ .vmem, ⟨5, _⟩ => ⟨S1x1x256, .f32⟩
  | .local _ .vmem, ⟨6, _⟩ => ⟨S1x64x256, .f32⟩
  | .local _ .vmem, ⟨7, _⟩ => ⟨S1x64x256, .f32⟩
  | .local _ .vmem, ⟨8, _⟩ => ⟨S1x256, .f32⟩
  | .local _ .vmem, ⟨9, _⟩ => ⟨S64x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_13 : BitVec 32 := 0#32
  let v20 : BitVec 1 := Scalar.cmpi .eq arg1 c0_i32_13
  let v21 : BitVec 32 := Scalar.extui v20
  let c0_i32_14 : BitVec 32 := 0#32
  let v22 : BitVec 1 := Scalar.cmpi .ne v21 c0_i32_14
  v22

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x1x256_S1x1x256_0_0_0 : ∀ a, (![0, 0, 0] : Fin 3 → Nat) a + S1x1x256.size a ≤ S1x1x256.size a
  h_S1x1x256 : 0 < S1x1x256.numel
  inb_S1x64x256_S1x64x256_0_0_0 : ∀ a, (![0, 0, 0] : Fin 3 → Nat) a + S1x64x256.size a ≤ S1x64x256.size a
  h_S1x64x256 : 0 < S1x64x256.numel
  inb_S4096x256_S4096x256_0_0 : ∀ a, (![0, 0] : Fin 2 → Nat) a + S4096x256.size a ≤ S4096x256.size a
  h_S4096x256 : 0 < S4096x256.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  reduces_S4096x256_S256 : S4096x256.Reduces [0] S256
  shapeCasts_S256_S1x256 : S256.ShapeCasts S1x256
  bitsLt_bf16_f32 : FTy.bits .bf16 < FTy.bits .f32
  shapeCasts_S1x256_S1x1x256 : S1x256.ShapeCasts S1x1x256
  shapeCasts_S64x256_S1x64x256 : S64x256.ShapeCasts S1x64x256
  reducesTo_S2x1x256_S1x256_d0 : S2x1x256.ReducesTo [0] S1x256
  h_S_ : 0 < S_.numel
  reducesTo_S2x64x256_S64x256_d0 : S2x64x256.ReducesTo [0] S64x256
  reducesTo_S1x256_S_d0_1 : S1x256.ReducesTo [0, 1] S_
  reducesTo_S64x256_S_d0_1 : S64x256.ReducesTo [0, 1] S_
  dot_S4096x64_S4096x256_S64x256_0_0_1_1_n_n_wf : DotDims.WF S4096x64 S4096x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S8192x256.size a
  hwx0_0 : ∀ i : grid0.Coords, EltTy.bits .f32 = 32 ∨ (Rect.block (s := S8192x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S8192x64.size a
  hwx0_1 : ∀ i : grid0.Coords, EltTy.bits .bf16 = 32 ∨ (Rect.block (s := S8192x64) S4096x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S2x1x256.size a
  hwx0_2 : ∀ i : grid0.Coords, EltTy.bits .f32 = 32 ∨ (Rect.block (s := S2x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S2x64x256.size a
  hwx0_3 : ∀ i : grid0.Coords, EltTy.bits .f32 = 32 ∨ (Rect.block (s := S2x64x256) S1x64x256.size (cc0_transform_3 i) (hinb0_3 i)).WholeWords (EltTy.packing .f32)

variable [Facts₀]

def dot_S4096x64_S4096x256_S64x256_0_0_1_1_n_n : DotDims S4096x64 S4096x256 S64x256 where
  lhsContracting := [0]
  rhsContracting := [0]
  lhsNonContracting := [1]
  rhsNonContracting := [1]
  lhsBatch := []
  rhsBatch := []
  wf := dot_S4096x64_S4096x256_S64x256_0_0_1_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x64x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond1 i == 1#1) && !(k0_cond2 i == 1#1) | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S8192x1, .i32⟩
  | .hbm, ⟨5, _⟩ => ⟨S1x64, .i32⟩
  | .hbm, ⟨6, _⟩ => ⟨S8192x64, .i32⟩
  | .hbm, ⟨7, _⟩ => ⟨S8192x64, .i32⟩
  | .hbm, ⟨8, _⟩ => ⟨S8192x64, .i1⟩
  | .hbm, ⟨9, _⟩ => ⟨S8192x64, .f32⟩
  | .hbm, ⟨10, _⟩ => ⟨S_, .f32⟩
  | .hbm, ⟨11, _⟩ => ⟨S_, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S_, .f32⟩
  | .hbm, ⟨16, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  reducesTo_S8192x8192_S_d0_1 : S8192x8192.ReducesTo [0, 1] S_
  h_S_ : 0 < S_.numel
  reducesTo_S8192x64_S_d0_1 : S8192x64.ReducesTo [0, 1] S_
  dot_S8192x256_S256x8192_S8192x8192_1_0_0_1_n_n_wf : DotDims.WF S8192x256 S256x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Ring.Finset
import Mathlib.Algebra.BigOperators.Fin
import Mathlib.Tactic.Ring

/-! # The algebra that joins the two programs

For a real matrix `f` (rows `i`, features `d`) and a real matrix `h` (rows `i`, clusters `k`; in the programs a
one-hot indicator, though nothing below uses that):

* the sum of all entries of the Gram matrix `f fᵀ` is the sum over features of the squared column sums;
* `∑ᵢₖ h i k · ((f fᵀ) h) i k` is the sum over clusters and features of the squared entries of `hᵀ f`.

Both are rearrangements of finite sums of products of reals, so they need the entries to be real numbers: over the
extended reals a product does not distribute over a sum.  The rows come in blocks (`e : blocks × rows-in-a-block ≃ rows`):
a sum over blocks of sums inside a block is the sum over all rows. -/

namespace Cert.Spec

open Finset

section Real

variable {ι δ γ κ ρ : Type} [Fintype ι] [Fintype δ] [Fintype γ] [Fintype κ] [Fintype ρ]

/-- The entries of the Gram matrix sum to the squared column sums. -/
theorem gram_total (f : ι → δ → ℝ) :
    ∑ i, ∑ j, ∑ d, f i d * f j d = ∑ d, (∑ i, f i d) * (∑ i, f i d) :=
  calc ∑ i, ∑ j, ∑ d, f i d * f j d
      = ∑ i, ∑ d, ∑ j, f i d * f j d := Finset.sum_congr rfl fun i _ => Finset.sum_comm
    _ = ∑ d, ∑ i, ∑ j, f i d * f j d := Finset.sum_comm
    _ = ∑ d, (∑ i, f i d) * (∑ i, f i d) := Finset.sum_congr rfl fun d _ => (Finset.sum_mul_sum _ _ _ _).symm

/-- The Gram matrix weighted on both sides by `h`, summed within clusters, is the squared entries of `hᵀ f`. -/
theorem gram_within (f : ι → δ → ℝ) (h : ι → γ → ℝ) :
    ∑ i, ∑ k, h i k * ∑ j, (∑ d, f i d * f j d) * h j k
      = ∑ k, ∑ d, (∑ i, h i k * f i d) * (∑ i, h i k * f i d) :=
  calc ∑ i, ∑ k, h i k * ∑ j, (∑ d, f i d * f j d) * h j k
      = ∑ i, ∑ k, ∑ j, ∑ d, (h i k * f i d) * (h j k * f j d) :=
        Finset.sum_congr rfl fun i _ => Finset.sum_congr rfl fun k _ => by
          rw [Finset.mul_sum]
          refine Finset.sum_congr rfl fun j _ => ?_
          rw [Finset.sum_mul, Finset.mul_sum]
          exact Finset.sum_congr rfl fun d _ => by ring
    _ = ∑ k, ∑ i, ∑ j, ∑ d, (h i k * f i d) * (h j k * f j d) := Finset.sum_comm
    _ = ∑ k, ∑ i, ∑ d, ∑ j, (h i k * f i d) * (h j k * f j d) :=
        Finset.sum_congr rfl fun k _ => Finset.sum_congr rfl fun i _ => Finset.sum_comm
    _ = ∑ k, ∑ d, ∑ i, ∑ j, (h i k * f i d) * (h j k * f j d) := Finset.sum_congr rfl fun k _ => Finset.sum_comm
    _ = ∑ k, ∑ d, (∑ i, h i k * f i d) * (∑ i, h i k * f i d) :=
        Finset.sum_congr rfl fun k _ => Finset.sum_congr rfl fun d _ => (Finset.sum_mul_sum _ _ _ _).symm

/-- Summing block by block is summing over all rows. -/
theorem sum_blocks (e : κ × ρ ≃ ι) (g : ι → ℝ) : ∑ b, ∑ r, g (e (b, r)) = ∑ i, g i :=
  (Fintype.sum_prod_type' fun b r => g (e (b, r))).symm.trans (e.sum_comp g)

end Real

/-- A finite sum of reals, read in the extended reals, is the sum of the summands read there. -/
theorem coe_sum {α : Type} (s : Finset α) (g : α → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-! ## The two programs' results as functions of the features `X` and the indicator `H` -/

open Idealize.ShloMosaic Idealize.ShloMosaic.ValueIdx

/-- The one-hot indicator of an assignment vector: 1 at `(i, k)` when row `i`'s assignment is the word `k`, else 0. -/
noncomputable def onehot (a : (⟨1, ![8192]⟩ : Shape).Idx → BitVec 32) (i : Fin 8192) (k : Fin 64) : EReal :=
  (((IntOp.cmpi .eq (a (ix1 i)) (BitVec.ofNat 32 k.val)).toNat : ℝ) : EReal)

theorem onehot_real (a : (⟨1, ![8192]⟩ : Shape).Idx → BitVec 32) (i : Fin 8192) (k : Fin 64) :
    ∃ r : ℝ, onehot a i k = (r : EReal) := ⟨_, rfl⟩

/-- The 8192 rows as two blocks of 4096. -/
def rowEquiv : Fin 2 × Fin 4096 ≃ Fin 8192 where
  toFun p := ⟨p.1.val * 4096 + p.2.val, by have := p.1.isLt; have := p.2.isLt; omega⟩
  invFun i := (⟨i.val / 4096, by have := i.isLt; omega⟩, ⟨i.val % 4096, by omega⟩)
  left_inv p := by
    have := p.1.isLt; have := p.2.isLt
    refine Prod.ext (Fin.ext ?_) (Fin.ext ?_)
    · show (p.1.val * 4096 + p.2.val) / 4096 = p.1.val; omega
    · show (p.1.val * 4096 + p.2.val) % 4096 = p.2.val; omega
  right_inv i := by
    refine Fin.ext ?_
    show i.val / 4096 * 4096 + i.val % 4096 = i.val; omega

/-- The reference: every entry of the Gram matrix, less the Gram matrix weighted by the indicator on both sides. -/
noncomputable def refTotal (X : Fin 8192 → Fin 256 → EReal) (H : Fin 8192 → Fin 64 → EReal) : EReal :=
  (0 + ∑ i : Fin 8192, ∑ j : Fin 8192, ∑ d : Fin 256, X i d * X j d)
    - (0 + ∑ i : Fin 8192, ∑ k : Fin 64, H i k * ∑ j : Fin 8192, (∑ d : Fin 256, X i d * X j d) * H j k)

/-- The kernel: per block of rows the column sums and the indicator-weighted column sums, the two blocks added,
    squared and summed, the second total subtracted from the first. -/
noncomputable def kerTotal (X : Fin 8192 → Fin 256 → EReal) (H : Fin 8192 → Fin 64 → EReal) : EReal :=
  (0 + ∑ _u : Fin 1, ∑ d : Fin 256,
      (0 + ∑ b : Fin 2, (0 + ∑ r : Fin 4096, X (rowEquiv (b, r)) d))
        * (0 + ∑ b : Fin 2, (0 + ∑ r : Fin 4096, X (rowEquiv (b, r)) d)))
    - (0 + ∑ k : Fin 64, ∑ d : Fin 256,
      (0 + ∑ b : Fin 2, (0 + ∑ r : Fin 4096, H (rowEquiv (b, r)) k * X (rowEquiv (b, r)) d))
        * (0 + ∑ b : Fin 2, (0 + ∑ r : Fin 4096, H (rowEquiv (b, r)) k * X (rowEquiv (b, r)) d)))

/-- Over the reals the two totals agree. -/
theorem totals_real (f : Fin 8192 → Fin 256 → ℝ) (h : Fin 8192 → Fin 64 → ℝ) :
    (∑ _u : Fin 1, ∑ d : Fin 256,
        (∑ b : Fin 2, ∑ r : Fin 4096, f (rowEquiv (b, r)) d) * (∑ b : Fin 2, ∑ r : Fin 4096, f (rowEquiv (b, r)) d))
      - (∑ k : Fin 64, ∑ d : Fin 256,
        (∑ b : Fin 2, ∑ r : Fin 4096, h (rowEquiv (b, r)) k * f (rowEquiv (b, r)) d)
          * (∑ b : Fin 2, ∑ r : Fin 4096, h (rowEquiv (b, r)) k * f (rowEquiv (b, r)) d))
    = (∑ i : Fin 8192, ∑ j : Fin 8192, ∑ d : Fin 256, f i d * f j d)
      - (∑ i : Fin 8192, ∑ k : Fin 64, h i k * ∑ j : Fin 8192, (∑ d : Fin 256, f i d * f j d) * h j k) := by
  have h1 : ∀ d, ∑ b : Fin 2, ∑ r : Fin 4096, f (rowEquiv (b, r)) d = ∑ i, f i d :=
    fun d => sum_blocks rowEquiv fun i => f i d
  have h2 : ∀ k d, ∑ b : Fin 2, ∑ r : Fin 4096, h (rowEquiv (b, r)) k * f (rowEquiv (b, r)) d = ∑ i, h i k * f i d :=
    fun k d => sum_blocks rowEquiv fun i => h i k * f i d
  simp only [h1, h2, Fintype.sum_unique]
  rw [gram_total, gram_within]

/-- When every feature and every indicator entry is a real number, the kernel's total is the reference's. -/
theorem totals_eq (X : Fin 8192 → Fin 256 → EReal) (H : Fin 8192 → Fin 64 → EReal)
    (hX : ∀ i d, ∃ r : ℝ, X i d = (r : EReal)) (hH : ∀ i k, ∃ r : ℝ, H i k = (r : EReal)) :
    kerTotal X H = refTotal X H := by
  choose f hf using hX
  choose h hh using hH
  unfold kerTotal refTotal
  simp only [hf, hh, zero_add, ← EReal.coe_mul, ← coe_sum, ← EReal.coe_sub]
  exact congrArg _ (totals_real f h)

end Cert.Spec
-- ==== Proof.Finite.lean ====
import proofs.«426112_j7507602833892_3_alg».proof.Pre_finite_inputs
import Idealize.ShloMosaic.Lib.ReduceAll
import Idealize.ShloMosaic.Lib.ValueIdx
import Idealize.ShloMosaic.PureOps.Ideal.Laws

set_option maxRecDepth 16384

noncomputable section

/-! # The precondition: every feature is a real number

The precondition says that every entry `x` of the features has `|x| < +∞` in the extended reals, that is, `x` is
neither `+∞` nor `−∞`: a real number. -/

namespace Cert.Pre_finite_inputs.Finite

open Idealize.ShloMosaic Idealize.ShloMosaic.ValueIdx
open Cert.Pre_finite_inputs

instance : Subsingleton S_.Idx := ⟨fun a b => funext fun d => d.elim0⟩

/-- The f32 word `0x7F800000` is `+∞`. -/
theorem inf_word : Ideal.ofBits .f32 0x7F800000#32 = ⊤ := by
  simp [Ideal.ofBits, Ideal.ieee]

/-- Under the precondition every entry of the features is a real number. -/
theorem real_of_pre [Facts] (x : FVec Ideal S8192x256 .f32) (a : IVec S8192 32)
    (h : fn (F := Ideal) x a = fun _ => 1#1) (i : S8192x256.Idx) : ∃ r : ℝ, x i = (r : EReal) := by
  have h0 := congrFun h ix0
  dsimp only [fn] at h0
  have hi := Host.reduce_andi_all _ _ _ _ _ h0 i
  change Ideal.cmp .olt (max (x i) (-(x i))) (Ideal.ofBits .f32 0x7F800000#32) = 1#1 at hi
  rw [inf_word] at hi
  have hlt : max (x i) (-(x i)) < ⊤ := by
    by_contra hn
    simp [Ideal.cmp, hn] at hi
  have h1 : x i ≠ ⊤ := fun e => by rw [e] at hlt; simp at hlt
  have h2 : x i ≠ ⊥ := fun e => by rw [e] at hlt; simp at hlt
  exact ⟨(x i).toReal, (EReal.coe_toReal h1 h2).symm⟩

end Cert.Pre_finite_inputs.Finite
end
-- ==== Proof.RefValue.lean ====
import proofs.«426112_j7507602833892_3_alg».proof.Proof.Gen.ReferenceIdeal.Read
import proofs.«426112_j7507602833892_3_alg».proof.Proof.Spec
import Idealize.ShloMosaic.Lib.ValueIdx
import Idealize.ShloMosaic.PureOps.Ideal.Laws

set_option maxRecDepth 16384

noncomputable section

/-! # The reference's result over the extended reals

With `X i d` the features and `H i k` the one-hot indicator (1 where row `i`'s assignment is `k`, else 0), the
reference computes `(0 + ∑ᵢⱼ ∑_d X i d · X j d) − (0 + ∑ᵢₖ H i k · ∑ⱼ (∑_d X i d · X j d) · H j k)`: every entry of the
Gram matrix summed, less the Gram matrix weighted by the indicator on both sides. -/

namespace Cert.ReferenceIdeal.RefValue

open Idealize.ShloMosaic Idealize.ShloMosaic.ValueIdx
open Cert.ReferenceIdeal Cert.ReferenceIdeal.Read Cert.Spec

theorem v2_apply (x1 : (⟨S8192, .i32⟩ : BufTy).Contents (Elt Ideal)) (i : Fin 8192) (k : Fin 64) :
    val_main_v2 (F := Ideal) x1 (ix2 i k) = onehot x1 i k := by
  rw [val_main_v2_apply, val_main_call0_v4_apply, val_main_call0_v2_apply, val_main_call0_v0_apply,
    val_main_call0_v3_apply, val_main_call0_v1_apply]
  have e : idx_main_call0_v0 (idx_main_call0_v2 (ix2 i k)) = ix1 i :=
    funext fun a => Fin.ext (by match a with | ⟨0, _⟩ => rfl)
  rw [e]
  rfl

theorem v1_apply (x0 : (⟨S8192x256, .f32⟩ : BufTy).Contents (Elt Ideal)) (i j : Fin 8192) :
    val_main_v1 (F := Ideal) x0 (ix2 i j) = ∑ d : Fin 256, x0 (ix2 i d) * x0 (ix2 j d) := by
  rw [val_main_v1_apply]
  refine Finset.sum_congr rfl fun d _ => ?_
  rw [val_main_v0_apply]
  have el : lidx_main_v1 (ix2 i j) d = ix2 i d :=
    funext fun a => Fin.ext (by match a with | ⟨0, _⟩ => rfl | ⟨1, _⟩ => rfl)
  have er : idx_main_v0 (ridx_main_v1 (ix2 i j) d) = ix2 j d :=
    funext fun a => Fin.ext (by match a with | ⟨0, _⟩ => rfl | ⟨1, _⟩ => rfl)
  rw [el, er]

theorem v4_apply (x0 : (⟨S8192x256, .f32⟩ : BufTy).Contents (Elt Ideal)) (x1 : (⟨S8192, .i32⟩ : BufTy).Contents (Elt Ideal))
    (i : Fin 8192) (k : Fin 64) :
    val_main_v4 (F := Ideal) x0 x1 (ix2 i k)
      = ∑ j : Fin 8192, (∑ d : Fin 256, x0 (ix2 i d) * x0 (ix2 j d)) * onehot x1 j k := by
  rw [val_main_v4_apply]
  refine Finset.sum_congr rfl fun j _ => ?_
  have el : lidx_main_v4 (ix2 i k) j = ix2 i j :=
    funext fun a => Fin.ext (by match a with | ⟨0, _⟩ => rfl | ⟨1, _⟩ => rfl)
  have er : ridx_main_v4 (ix2 i k) j = ix2 j k :=
    funext fun a => Fin.ext (by match a with | ⟨0, _⟩ => rfl | ⟨1, _⟩ => rfl)
  rw [el, er, v1_apply, v2_apply]

/-- The reference's result. -/
theorem result_apply (x0 : (⟨S8192x256, .f32⟩ : BufTy).Contents (Elt Ideal)) (x1 : (⟨S8192, .i32⟩ : BufTy).Contents (Elt Ideal)) (i0 : S_.Idx) :
    val_main_v7 (F := Ideal) x0 x1 i0 = refTotal (fun i d => x0 (ix2 i d)) (onehot x1) := by
  unfold refTotal
  rw [val_main_v7_apply, Ideal.subf_def, val_main_v3_apply, val_main_v6_apply, val_main_cst_apply, val_main_cst_0_apply,
    Ideal.ofBits_def, Ideal.ofBits_zero_f32, sum_idx2, sum_idx2]
  refine congrArg₂ (· - ·) (congrArg (0 + ·) ?_) (congrArg (0 + ·) ?_)
  · exact Finset.sum_congr rfl fun i _ => Finset.sum_congr rfl fun j _ => v1_apply x0 i j
  · refine Finset.sum_congr rfl fun i _ => Finset.sum_congr rfl fun k _ => ?_
    rw [val_main_v5_apply, Ideal.mulf_def, v2_apply, v4_apply]

end Cert.ReferenceIdeal.RefValue
end
-- ==== Proof.Body.lean ====
import proofs.«426112_j7507602833892_3_alg».proof.Proof.Gen.KernelIdeal.Frame
import Idealize.ShloMosaic.Lib.Pipeline.Value

set_option maxRecDepth 16384

noncomputable section

/-! # What one grid step leaves in the two output blocks

At every grid point the second grid coordinate is zero, so one step of the body clears both accumulators,
adds the block's column sums (respectively the product of the transposed one-hot block with the feature block)
to the cleared accumulators, and copies the accumulators into the output blocks.  Reading the step's stores back,
the column-sum block is `reshape (0 + colsum x0)` and the cluster-sum block is `reshape (0 + x1ᵀ · x0)`,
stated here through the body's own pure terms. -/

namespace Cert.KernelIdeal.Body

open Idealize.ShloMosaic Idealize.ShloMosaic.TcCoe Idealize.ShloMosaic.Tactic
open Idealize.SL Idealize.SL.Sem
open Cert.KernelIdeal Cert.KernelIdeal.Gen

variable {F : FTy → Type} [FloatOps F]

theorem zeros2 : (![0, 0] : Fin 2 → Nat) = fun _ => 0 := by funext a; fin_cases a <;> rfl
theorem zeros3 : (![0, 0, 0] : Fin 3 → Nat) = fun _ => 0 := by funext a; fin_cases a <;> rfl

/-- A whole-buffer load after a whole-buffer store (the last of any list of stores) reads that store's value. -/
theorem readCov_cons_whole {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The column-sum output block after one step. -/
theorem out2_eq (c : Dev nD) (i : grid0.Coords) (arg2 : Memref sig .tc .vmem S4096x256 .f32) (harg2 : arg2.IsWhole) (arg3 : Memref sig .tc .vmem S4096x64 .bf16) (harg3 : arg3.IsWhole) (arg4 : Memref sig .tc .vmem S1x1x256 .f32) (harg4 : arg4.IsWhole) (arg5 : Memref sig .tc .vmem S1x64x256 .f32) (harg5 : arg5.IsWhole) (arg6 : Memref sig .tc .vmem S1x256 .f32) (harg6 : arg6.IsWhole) (arg7 : Memref sig .tc .vmem S64x256 .f32) (harg7 : arg7.IsWhole) (hc0 : cond0_0 i) (hc1 : cond0_1 i)
    (x0 : Vec F S4096x256 .f32) (x1 : Vec F S4096x64 .bf16) :
    out0_A_2 c i arg2 harg2 arg3 harg3 arg4 harg4 arg5 harg5 arg6 harg6 arg7 harg7 hc0 hc1 x0 x1
      = k0_pay7 (k0_pay5 x0 (k0_pay1 (F := F))) := by
  unfold out0_A_2
  rw [View.read_writes_eq_canon _ _ _ (cover0_A_2 c i arg2 harg2 arg3 harg3 arg4 harg4 arg5 harg5 arg6 harg6 arg7 harg7 hc0 hc1 x0 x1)]
  unfold kernelRun0_A
  dsimp only
  sl_unfold_words
  rw [View.canon_cons_unit_zero (S := S1x1x256) zeros3]
  simp only [View.readAt_eq_ld, harg2.read_unread, harg3.read_unread, View.ld_unit_zero (S := S4096x256) zeros2,
    View.ld_unit_zero (S := S4096x64) zeros2, readCov_cons_whole (S := S1x256) _ zeros2, readCov_cons_whole (S := S64x256) _ zeros2]

/-- The cluster-sum output block after one step. -/
theorem out3_eq (c : Dev nD) (i : grid0.Coords) (arg2 : Memref sig .tc .vmem S4096x256 .f32) (harg2 : arg2.IsWhole) (arg3 : Memref sig .tc .vmem S4096x64 .bf16) (harg3 : arg3.IsWhole) (arg4 : Memref sig .tc .vmem S1x1x256 .f32) (harg4 : arg4.IsWhole) (arg5 : Memref sig .tc .vmem S1x64x256 .f32) (harg5 : arg5.IsWhole) (arg6 : Memref sig .tc .vmem S1x256 .f32) (harg6 : arg6.IsWhole) (arg7 : Memref sig .tc .vmem S64x256 .f32) (harg7 : arg7.IsWhole) (hc0 : cond0_0 i) (hc1 : cond0_1 i)
    (x0 : Vec F S4096x256 .f32) (x1 : Vec F S4096x64 .bf16) :
    out0_A_3 c i arg2 harg2 arg3 harg3 arg4 harg4 arg5 harg5 arg6 harg6 arg7 harg7 hc0 hc1 x0 x1
      = k0_pay8 (k0_pay6 x0 x1 (k0_pay2 (F := F))) := by
  unfold out0_A_3
  rw [View.read_writes_eq_canon _ _ _ (cover0_A_3 c i arg2 harg2 arg3 harg3 arg4 harg4 arg5 harg5 arg6 harg6 arg7 harg7 hc0 hc1 x0 x1)]
  unfold kernelRun0_A
  dsimp only
  sl_unfold_words
  rw [View.canon_cons_unit_zero (S := S1x64x256) zeros3]
  simp only [View.readAt_eq_ld, harg2.read_unread, harg3.read_unread, View.ld_unit_zero (S := S4096x256) zeros2,
    View.ld_unit_zero (S := S4096x64) zeros2, readCov_cons_whole (S := S1x256) _ zeros2, readCov_cons_whole (S := S64x256) _ zeros2]

end Cert.KernelIdeal.Body
end
-- ==== Proof.Payload.lean ====
import proofs.«426112_j7507602833892_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # The two output blocks of one grid step, entry by entry, over the extended reals

With exact arithmetic the column-sum block at lane `d` is `0 + ∑ r, x (r, d)` over the 4096 rows of the feature
block, and the cluster-sum block at `(k, d)` is `0 + ∑ r, o (r, k) * x (r, d)`, the product of the transposed
one-hot block with the feature block (the change of float format before the product is the identity). -/

namespace Cert.KernelIdeal.Payload

open Idealize.ShloMosaic Idealize.ShloMosaic.ValueIdx
open Cert.KernelIdeal Cert.KernelIdeal.Gen

/-- The index the lane reduction inserts: row `r` above lane `d`. -/
theorem lift_eq (h : S4096x256.Reduces [0] S256) (d : Fin 256) (r : Fin 4096) :
    h.lift (ix1 d) r = ix2 r d :=
  funext fun a => Fin.ext (by match a with | ⟨0, _⟩ => rfl | ⟨1, _⟩ => rfl)

/-- The lane reduction at lane `d`: the sum of the block's column `d`. -/
theorem colred_apply (x0 : FVec Ideal S4096x256 .f32) (hφ : FKind.Formats .f32)
    (hacc : (0x00000000#32 : BitVec 32) = 0x00000000#32) (d : Fin 256) :
    multiReduction .add [0] S256 x0 0x00000000#32 reduces_S4096x256_S256 hφ hacc (ix1 d) = ∑ r : Fin 4096, x0 (ix2 r d) :=
  (Ideal.multiReduction_add_single x0 0x00000000#32 reduces_S4096x256_S256 hφ hacc (ix1 d)).trans
    (Finset.sum_congr rfl fun r _ => congrArg x0 (lift_eq reduces_S4096x256_S256 d r))

/-- The column-sum block at lane `d`. -/
theorem colsum_apply (x0 : FVec Ideal S4096x256 .f32) (u v : Fin 1) (d : Fin 256) :
    k0_pay7 (k0_pay5 x0 (k0_pay1 (F := Ideal))) (ix3 u v d) = 0 + ∑ r : Fin 4096, x0 (ix2 r d) := by
  unfold k0_pay7 k0_pay5 k0_pay1
  dsimp only
  simp only [shapeCast_self]
  rw [shapeCast_ab_1ab_apply, addf_apply, broadcast_apply, shapeCast_a_1a_apply, colred_apply]
  show Ideal.ofBits .f32 0x00000000#32 + _ = _
  rw [Ideal.ofBits_zero_f32]

theorem lhs_0 (i : S64x256.Idx) (q : dot_S4096x64_S4096x256_S64x256_0_0_1_1_n_n.contr.Idx) :
    (dot_S4096x64_S4096x256_S64x256_0_0_1_1_n_n.lhsIdx i q 0).val = (q ⟨0, by decide⟩).val :=
  dot_S4096x64_S4096x256_S64x256_0_0_1_1_n_n.lhsIdx_val_of_single rfl i q
theorem lhs_1 (i : S64x256.Idx) (q : dot_S4096x64_S4096x256_S64x256_0_0_1_1_n_n.contr.Idx) :
    (dot_S4096x64_S4096x256_S64x256_0_0_1_1_n_n.lhsIdx i q 1).val = (i 0).val := by
  unfold DotDims.lhsIdx
  rw [dif_neg (show ¬(1 : Fin S4096x64.rank) ∈ dot_S4096x64_S4096x256_S64x256_0_0_1_1_n_n.lhsBatch by decide), dif_pos (show (1 : Fin S4096x64.rank) ∈ dot_S4096x64_S4096x256_S64x256_0_0_1_1_n_n.lhsNonContracting by decide)]
  rfl
theorem rhs_0 (i : S64x256.Idx) (q : dot_S4096x64_S4096x256_S64x256_0_0_1_1_n_n.contr.Idx) :
    (dot_S4096x64_S4096x256_S64x256_0_0_1_1_n_n.rhsIdx i q 0).val = (q ⟨0, by decide⟩).val :=
  dot_S4096x64_S4096x256_S64x256_0_0_1_1_n_n.rhsIdx_val_of_single rfl i q
theorem rhs_1 (i : S64x256.Idx) (q : dot_S4096x64_S4096x256_S64x256_0_0_1_1_n_n.contr.Idx) :
    (dot_S4096x64_S4096x256_S64x256_0_0_1_1_n_n.rhsIdx i q 1).val = (i 1).val := by
  unfold DotDims.rhsIdx
  rw [dif_neg (show ¬(1 : Fin S4096x256.rank) ∈ dot_S4096x64_S4096x256_S64x256_0_0_1_1_n_n.rhsBatch by decide), dif_pos (show (1 : Fin S4096x256.rank) ∈ dot_S4096x64_S4096x256_S64x256_0_0_1_1_n_n.rhsNonContracting by decide)]
  rfl

/-- The product of the transposed one-hot block with the feature block, at `(k, d)`. -/
theorem matmul_apply (l : FVec Ideal S4096x64 .bf16) (r : FVec Ideal S4096x256 .bf16) (k : Fin 64) (d : Fin 256) :
    (matmul (F := Ideal) dot_S4096x64_S4096x256_S64x256_0_0_1_1_n_n none l r (constant (F := Ideal) S64x256 .f32 0x00000000#32) (ix2 k d) : EReal)
      = ∑ q : Fin 4096, (l (ix2 q k) : EReal) * (r (ix2 q d) : EReal) := by
  simp only [matmul]
  rw [Ideal.matmul_constant_zero_apply, ← Equiv.sum_comp (contrEquiv1 dot_S4096x64_S4096x256_S64x256_0_0_1_1_n_n 4096 rfl rfl).symm]
  refine Finset.sum_congr rfl fun q _ => ?_
  have hq := contrEquiv1_symm_val dot_S4096x64_S4096x256_S64x256_0_0_1_1_n_n 4096 rfl rfl q
  have el : dot_S4096x64_S4096x256_S64x256_0_0_1_1_n_n.lhsIdx (ix2 k d) ((contrEquiv1 dot_S4096x64_S4096x256_S64x256_0_0_1_1_n_n 4096 rfl rfl).symm q) = ix2 q k := funext fun a => Fin.ext (by
    match a with
    | ⟨0, _⟩ => exact (lhs_0 _ _).trans hq
    | ⟨1, _⟩ => exact lhs_1 _ _)
  have er : dot_S4096x64_S4096x256_S64x256_0_0_1_1_n_n.rhsIdx (ix2 k d) ((contrEquiv1 dot_S4096x64_S4096x256_S64x256_0_0_1_1_n_n 4096 rfl rfl).symm q) = ix2 q d := funext fun a => Fin.ext (by
    match a with
    | ⟨0, _⟩ => exact (rhs_0 _ _).trans hq
    | ⟨1, _⟩ => exact rhs_1 _ _)
  rw [el, er]

/-- The cluster-sum block at `(k, d)`. -/
theorem clsum_apply (x0 : FVec Ideal S4096x256 .f32) (x1 : FVec Ideal S4096x64 .bf16) (u : Fin 1) (k : Fin 64) (d : Fin 256) :
    (k0_pay8 (F := Ideal) (k0_pay6 (F := Ideal) x0 x1 (k0_pay2 (F := Ideal))) (ix3 u k d) : EReal)
      = 0 + ∑ r : Fin 4096, (x1 (ix2 r k) : EReal) * (x0 (ix2 r d) : EReal) := by
  unfold k0_pay8 k0_pay6 k0_pay2
  dsimp only
  simp only [shapeCast_self]
  rw [shapeCast_ab_1ab_apply, addf_apply, broadcast_apply, matmul_apply]
  show Ideal.ofBits .f32 0x00000000#32 + _ = _
  rw [Ideal.ofBits_zero_f32]
  rfl

end Cert.KernelIdeal.Payload
end
-- ==== Proof.Arrays.lean ====
import proofs.«426112_j7507602833892_3_alg».proof.Proof.Body
import proofs.«426112_j7507602833892_3_alg».proof.Proof.Payload

set_option maxRecDepth 16384

noncomputable section

/-! # The two partial-sum arrays after the kernel has run

The grid has two points; point `b` reads rows `4096 b … 4096 b + 4095` of the features and of the one-hot
indicator and writes block `b` of each output.  So the column-sum array holds at `(b, 0, d)` the sum of column `d`
over the rows of block `b`, and the cluster-sum array at `(b, k, d)` the sum over those rows of
indicator `(row, k)` times feature `(row, d)`. -/

namespace Cert.KernelIdeal.Arrays

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

/-- The features and the one-hot indicator as the kernel finds them. -/
abbrev xs (c : Dev nD) : FVec Ideal S8192x256 .f32 := V m c main_arg0
abbrev oh (c : Dev nD) : FVec Ideal S8192x64 .bf16 := V m c main_v0

/-- The blocks of both that point `t` reads. -/
abbrev xblk (c : Dev nD) (t : Fin cfg0.N) : FVec Ideal S4096x256 .f32 := iblk m c 0 t
abbrev oblk (c : Dev nD) (t : Fin cfg0.N) : FVec Ideal S4096x64 .bf16 := iblk m c 1 t

/-- Row `r` of block `b`. -/
abbrev row (b : Nat) (hb : b < 2) (r : Fin 4096) : Fin 8192 := ⟨b * 4096 + r.val, by have := r.isLt; omega⟩

/-- The column sums of each block of rows. -/
def colpart (c : Dev nD) : FVec Ideal S2x1x256 .f32 := fun j =>
  0 + ∑ r : Fin 4096, xs m c (ix2 (row (j 0).val (j 0).isLt r) ⟨(j 2).val, (j 2).isLt⟩)

/-- The indicator-weighted column sums of each block of rows. -/
def clpart (c : Dev nD) : FVec Ideal S2x64x256 .f32 := fun j =>
  0 + ∑ r : Fin 4096, (oh m c (ix2 (row (j 0).val (j 0).isLt r) ⟨(j 1).val, (j 1).isLt⟩) : EReal)
    * (xs m c (ix2 (row (j 0).val (j 0).isLt r) ⟨(j 2).val, (j 2).isLt⟩) : EReal)

/-- The printed index maps over the two grid points: block `t` of the rows, block `t` of each output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem N_eq : cfg0.N = 2 := N_0

/-- The feature block of point `t` is rows `4096 t + r` of the features. -/
theorem xblk_apply (c : Dev nD) (t : Fin cfg0.N) (r : Fin 4096) (d : Fin 256) :
    xblk m c t (ix2 r d) = xs m c (ix2 (row t.val (N_eq ▸ t.isLt) r) d) := by
  obtain ⟨e00, e01, -⟩ := idx_facts t
  show V m c main_arg0 (((cfg0.win 0).blk t).view.emb (ix2 r d)) = V m c main_arg0 _
  refine congrArg (V m c main_arg0) (funext fun a => Fin.ext ?_)
  match a with
  | ⟨0, _⟩ => show win0_0.index t (0 : Fin 2) * 4096 + 1 * r.val = t.val * 4096 + r.val; rw [e00]; omega
  | ⟨1, _⟩ => show win0_0.index t (1 : Fin 2) * 256 + 1 * d.val = d.val; rw [e01]; omega

/-- The indicator block of point `t` is rows `4096 t + r` of the indicator. -/
theorem oblk_apply (c : Dev nD) (t : Fin cfg0.N) (r : Fin 4096) (k : Fin 64) :
    oblk m c t (ix2 r k) = oh m c (ix2 (row t.val (N_eq ▸ t.isLt) r) k) := by
  obtain ⟨-, -, e10, e11, -⟩ := idx_facts t
  show V m c main_v0 (((cfg0.win 1).blk t).view.emb (ix2 r k)) = V m c main_v0 _
  refine congrArg (V m c main_v0) (funext fun a => Fin.ext ?_)
  match a with
  | ⟨0, _⟩ => show win0_1.index t (0 : Fin 2) * 4096 + 1 * r.val = t.val * 4096 + r.val; rw [e10]; omega
  | ⟨1, _⟩ => show win0_1.index t (1 : Fin 2) * 64 + 1 * k.val = k.val; rw [e11]; omega

/-- What point `t` writes back into the column-sum array is block `t` of `colpart`. -/
theorem flushed2_eq (c : Dev nD) (t : Fin cfg0.N) :
    (dats m 0 c).flushed 2 t = ((cfg0.win 2).blk t).view.read (Elt Ideal) (colpart m c) := by
  show (cfg0.win 2).cut (grid0.coords t) ((dats m 0 c).after 2 t) = _
  rw [after0_2]
  unfold outsAt0
  dsimp only
  rw [Body.out2_eq]
  obtain ⟨-, -, -, -, e20, e21, e22, -⟩ := idx_facts t
  funext y
  obtain ⟨u, v, d, rfl⟩ : ∃ (u v : Fin 1) (d : Fin 256), y = ix3 u v d := ⟨y 0, y 1, y 2, eq_ix3 y⟩
  show k0_pay7 (F := Ideal) (k0_pay5 (F := Ideal) (xblk m c t) (k0_pay1 (F := Ideal))) (ix3 u v d)
    = colpart m c (((cfg0.win 2).blk t).view.emb (ix3 u v d))
  refine (Payload.colsum_apply (xblk m c t) u v d).trans ?_
  unfold colpart
  refine congrArg (0 + ·) (Finset.sum_congr rfl fun r _ => ?_)
  rw [xblk_apply]
  refine congrArg (xs m c) (funext fun a => Fin.ext ?_)
  have hu : u.val = 0 := by omega
  match a with
  | ⟨0, _⟩ => show t.val * 4096 + r.val = (win0_2.index t (0 : Fin 3) * 1 + 1 * u.val) * 4096 + r.val; rw [e20, hu]; omega
  | ⟨1, _⟩ => show d.val = win0_2.index t (2 : Fin 3) * 256 + 1 * d.val; rw [e22]; omega

/-- What point `t` writes back into the cluster-sum array is block `t` of `clpart`. -/
theorem flushed3_eq (c : Dev nD) (t : Fin cfg0.N) :
    (dats m 0 c).flushed 3 t = ((cfg0.win 3).blk t).view.read (Elt Ideal) (clpart m c) := by
  show (cfg0.win 3).cut (grid0.coords t) ((dats m 0 c).after 3 t) = _
  rw [after0_3]
  unfold outsAt0
  dsimp only
  rw [Body.out3_eq]
  obtain ⟨-, -, -, -, -, -, -, e30, e31, e32⟩ := idx_facts t
  funext y
  obtain ⟨u, k, d, rfl⟩ : ∃ (u : Fin 1) (k : Fin 64) (d : Fin 256), y = ix3 u k d := ⟨y 0, y 1, y 2, eq_ix3 y⟩
  show (k0_pay8 (F := Ideal) (k0_pay6 (F := Ideal) (xblk m c t) (oblk m c t) (k0_pay2 (F := Ideal))) (ix3 u k d) : EReal)
    = clpart m c (((cfg0.win 3).blk t).view.emb (ix3 u k d))
  refine (Payload.clsum_apply (xblk m c t) (oblk m c t) u k d).trans ?_
  unfold clpart
  refine congrArg (0 + ·) (Finset.sum_congr rfl fun r _ => ?_)
  rw [xblk_apply, oblk_apply]
  have hu : u.val = 0 := by omega
  refine congrArg₂ (· * ·) (congrArg (oh m c) (funext fun a => Fin.ext ?_)) (congrArg (xs m c) (funext fun a => Fin.ext ?_))
  · match a with
    | ⟨0, _⟩ => show t.val * 4096 + r.val = (win0_3.index t (0 : Fin 3) * 1 + 1 * u.val) * 4096 + r.val; rw [e30, hu]; omega
    | ⟨1, _⟩ => show k.val = win0_3.index t (1 : Fin 3) * 64 + 1 * k.val; rw [e31]; omega
  · match a with
    | ⟨0, _⟩ => show t.val * 4096 + r.val = (win0_3.index t (0 : Fin 3) * 1 + 1 * u.val) * 4096 + r.val; rw [e30, hu]; omega
    | ⟨1, _⟩ => show d.val = win0_3.index t (2 : Fin 3) * 256 + 1 * d.val; rw [e32]; omega

/-- An index of the column-sum array lies in point `t`'s block iff every coordinate lies in the block's range. -/
theorem mem_blk2 (t : Fin cfg0.N) (i : S2x1x256.Idx) :
    i ∈ ((cfg0.win 2).blk t).view.set ↔ ∀ a : Fin 3, win0_2.index t a * S1x1x256.size a ≤ (i a).val ∧ (i a).val < win0_2.index t a * S1x1x256.size a + S1x1x256.size a := by
  show i ∈ ((View.whole main_v1_0).slice (win0_2.rect t)).set ↔ _
  rw [View.set_slice_whole, Rect.mem_set_unit]
  exact Iff.rfl

theorem mem_blk3 (t : Fin cfg0.N) (i : S2x64x256.Idx) :
    i ∈ ((cfg0.win 3).blk t).view.set ↔ ∀ a : Fin 3, win0_3.index t a * S1x64x256.size a ≤ (i a).val ∧ (i a).val < win0_3.index t a * S1x64x256.size a + S1x64x256.size a := by
  show i ∈ ((View.whole main_v1_1).slice (win0_3.rect t)).set ↔ _
  rw [View.set_slice_whole, Rect.mem_set_unit]
  exact Iff.rfl

/-- The column-sum array after the run. -/
theorem final2 (c : Dev nD) : (dats m 0 c).arrAt 2 cfg0.N = colpart m c :=
  (dats m 0 c).arrAt_eq_of_cover 2 (colpart m c) (fun t _ => flushed2_eq m c t) fun i => by
    have h0 : (i 0).val < 2 := (i 0).isLt
    have h1 : (i 1).val < 1 := (i 1).isLt
    have h2 : (i 2).val < 256 := (i 2).isLt
    let t : Fin cfg0.N := ⟨(i 0).val, by rw [N_eq]; exact h0⟩
    obtain ⟨-, -, -, -, e20, e21, e22, -⟩ := idx_facts t
    refine ⟨t, flush0_2 t, (mem_blk2 t i).mpr fun a => ?_⟩
    match a with
    | ⟨0, _⟩ => show win0_2.index t (0 : Fin 3) * 1 ≤ (i 0).val ∧ (i 0).val < win0_2.index t (0 : Fin 3) * 1 + 1; rw [e20]; show (i 0).val * 1 ≤ (i 0).val ∧ (i 0).val < (i 0).val * 1 + 1; omega
    | ⟨1, _⟩ => show win0_2.index t (1 : Fin 3) * 1 ≤ (i 1).val ∧ (i 1).val < win0_2.index t (1 : Fin 3) * 1 + 1; rw [e21]; omega
    | ⟨2, _⟩ => show win0_2.index t (2 : Fin 3) * 256 ≤ (i 2).val ∧ (i 2).val < win0_2.index t (2 : Fin 3) * 256 + 256; rw [e22]; omega

/-- The cluster-sum array after the run. -/
theorem final3 (c : Dev nD) : (dats m 0 c).arrAt 3 cfg0.N = clpart m c :=
  (dats m 0 c).arrAt_eq_of_cover 3 (clpart m c) (fun t _ => flushed3_eq m c t) fun i => by
    have h0 : (i 0).val < 2 := (i 0).isLt
    have h1 : (i 1).val < 64 := (i 1).isLt
    have h2 : (i 2).val < 256 := (i 2).isLt
    let t : Fin cfg0.N := ⟨(i 0).val, by rw [N_eq]; exact h0⟩
    obtain ⟨-, -, -, -, -, -, -, e30, e31, e32⟩ := idx_facts t
    refine ⟨t, flush0_3 t, (mem_blk3 t i).mpr fun a => ?_⟩
    match a with
    | ⟨0, _⟩ => show win0_3.index t (0 : Fin 3) * 1 ≤ (i 0).val ∧ (i 0).val < win0_3.index t (0 : Fin 3) * 1 + 1; rw [e30]; show (i 0).val * 1 ≤ (i 0).val ∧ (i 0).val < (i 0).val * 1 + 1; omega
    | ⟨1, _⟩ => show win0_3.index t (1 : Fin 3) * 64 ≤ (i 1).val ∧ (i 1).val < win0_3.index t (1 : Fin 3) * 64 + 64; rw [e31]; omega
    | ⟨2, _⟩ => show win0_3.index t (2 : Fin 3) * 256 ≤ (i 2).val ∧ (i 2).val < win0_3.index t (2 : Fin 3) * 256 + 256; rw [e32]; omega

end Cert.KernelIdeal.Arrays
end
-- ==== Proof.Tail.lean ====
import proofs.«426112_j7507602833892_3_alg».proof.Proof.Gen.KernelIdeal
import Idealize.ShloMosaic.Lib.ValueIdx
import Idealize.ShloMosaic.PureOps.Ideal.Laws

set_option maxRecDepth 16384

noncomputable section

/-! # The host operations after the kernel

The host adds the two blocks of each partial-sum array, squares entry by entry, sums all entries and subtracts:
with `P d = 0 + ∑_b A (b, 0, d)` and `Q k d = 0 + ∑_b B (b, k, d)` the result is
`(0 + ∑_d P d · P d) − (0 + ∑_{k,d} Q k d · Q k d)`. -/

namespace Cert.KernelIdeal.Tail

open Idealize.ShloMosaic Idealize.ShloMosaic.ValueIdx
open Cert.KernelIdeal Cert.KernelIdeal.Gen

/-- The host operations after the kernel, as one function of the two partial-sum arrays. -/
def tail (A : FVec Ideal S2x1x256 .f32) (B : FVec Ideal S2x64x256 .f32) : FVec Ideal S_ .f32 :=
  subf
    (Host.reduceAdd (F := Ideal)
      (mulf (Host.reduceAdd (F := Ideal) A (constant (F := Ideal) S_ .f32 0x00000000#32) reducesTo_S2x1x256_S1x256_d0 h_S_)
        (Host.reduceAdd (F := Ideal) A (constant (F := Ideal) S_ .f32 0x00000000#32) reducesTo_S2x1x256_S1x256_d0 h_S_))
      (constant (F := Ideal) S_ .f32 0x00000000#32) reducesTo_S1x256_S_d0_1 h_S_)
    (Host.reduceAdd (F := Ideal)
      (mulf (Host.reduceAdd (F := Ideal) B (constant (F := Ideal) S_ .f32 0x00000000#32) reducesTo_S2x64x256_S64x256_d0 h_S_)
        (Host.reduceAdd (F := Ideal) B (constant (F := Ideal) S_ .f32 0x00000000#32) reducesTo_S2x64x256_S64x256_d0 h_S_))
      (constant (F := Ideal) S_ .f32 0x00000000#32) reducesTo_S64x256_S_d0_1 h_S_)

theorem lift2 (h : S2x1x256.Reduces [0] S1x256) (u : Fin 1) (d : Fin 256) (b : Fin 2) :
    h.lift (ix2 u d) b = ix3 b u d :=
  funext fun a => Fin.ext (by match a with | ⟨0, _⟩ => rfl | ⟨1, _⟩ => rfl | ⟨2, _⟩ => rfl)

theorem lift3 (h : S2x64x256.Reduces [0] S64x256) (k : Fin 64) (d : Fin 256) (b : Fin 2) :
    h.lift (ix2 k d) b = ix3 b k d :=
  funext fun a => Fin.ext (by match a with | ⟨0, _⟩ => rfl | ⟨1, _⟩ => rfl | ⟨2, _⟩ => rfl)

/-- Adding the two blocks of the column-sum array. -/
theorem addBlocks2 (A : FVec Ideal S2x1x256 .f32) (u : Fin 1) (d : Fin 256) :
    Host.reduceAdd (F := Ideal) A (constant (F := Ideal) S_ .f32 0x00000000#32) reducesTo_S2x1x256_S1x256_d0 h_S_ (ix2 u d)
      = 0 + ∑ b : Fin 2, A (ix3 b u d) := by
  simp only [Host.reduceAdd, Ideal.hostReduceAdd_def]
  have hr : S2x1x256.Reduces [0] S1x256 := by decide
  refine (Ideal.hostReduceAdd_single reducesTo_S2x1x256_S1x256_d0 hr A _ (ix2 u d)).trans ?_
  exact congrArg₂ (· + ·) Ideal.ofBits_zero_f32 (Finset.sum_congr rfl fun b _ => congrArg A (lift2 hr u d b))

/-- Adding the two blocks of the cluster-sum array. -/
theorem addBlocks3 (B : FVec Ideal S2x64x256 .f32) (k : Fin 64) (d : Fin 256) :
    Host.reduceAdd (F := Ideal) B (constant (F := Ideal) S_ .f32 0x00000000#32) reducesTo_S2x64x256_S64x256_d0 h_S_ (ix2 k d)
      = 0 + ∑ b : Fin 2, B (ix3 b k d) := by
  simp only [Host.reduceAdd, Ideal.hostReduceAdd_def]
  have hr : S2x64x256.Reduces [0] S64x256 := by decide
  refine (Ideal.hostReduceAdd_single reducesTo_S2x64x256_S64x256_d0 hr B _ (ix2 k d)).trans ?_
  exact congrArg₂ (· + ·) Ideal.ofBits_zero_f32 (Finset.sum_congr rfl fun b _ => congrArg B (lift3 hr k d b))

/-- Summing every entry of a `1 × 256` array. -/
theorem total2 (Y : FVec Ideal S1x256 .f32) (i0 : S_.Idx) :
    Host.reduceAdd (F := Ideal) Y (constant (F := Ideal) S_ .f32 0x00000000#32) reducesTo_S1x256_S_d0_1 h_S_ i0
      = 0 + ∑ u : Fin 1, ∑ d : Fin 256, Y (ix2 u d) := by
  simp only [Host.reduceAdd, Ideal.hostReduceAdd_def]
  refine (Ideal.hostReduceAdd_total reducesTo_S1x256_S_d0_1 (fun b => b.elim0) Y _ i0).trans ?_
  rw [sum_idx2]
  exact congrArg (· + _) Ideal.ofBits_zero_f32

/-- Summing every entry of a `64 × 256` array. -/
theorem total3 (Y : FVec Ideal S64x256 .f32) (i0 : S_.Idx) :
    Host.reduceAdd (F := Ideal) Y (constant (F := Ideal) S_ .f32 0x00000000#32) reducesTo_S64x256_S_d0_1 h_S_ i0
      = 0 + ∑ k : Fin 64, ∑ d : Fin 256, Y (ix2 k d) := by
  simp only [Host.reduceAdd, Ideal.hostReduceAdd_def]
  refine (Ideal.hostReduceAdd_total reducesTo_S64x256_S_d0_1 (fun b => b.elim0) Y _ i0).trans ?_
  rw [sum_idx2]
  exact congrArg (· + _) Ideal.ofBits_zero_f32

/-- The result of the host operations after the kernel. -/
theorem tail_apply (A : FVec Ideal S2x1x256 .f32) (B : FVec Ideal S2x64x256 .f32) (i0 : S_.Idx) :
    tail A B i0
      = (0 + ∑ u : Fin 1, ∑ d : Fin 256, (0 + ∑ b : Fin 2, A (ix3 b u d)) * (0 + ∑ b : Fin 2, A (ix3 b u d)))
        - (0 + ∑ k : Fin 64, ∑ d : Fin 256, (0 + ∑ b : Fin 2, B (ix3 b k d)) * (0 + ∑ b : Fin 2, B (ix3 b k d))) := by
  unfold tail
  rw [subf_apply, total2, total3]
  simp only [mulf_apply, addBlocks2, addBlocks3]

end Cert.KernelIdeal.Tail
end
-- ==== Proof.Run.lean ====
import proofs.«426112_j7507602833892_3_alg».proof.Proof.Arrays
import proofs.«426112_j7507602833892_3_alg».proof.Proof.Tail
import proofs.«426112_j7507602833892_3_alg».proof.Proof.Spec
import Idealize.ShloMosaic.Lib.StableHlo.Run

set_option maxRecDepth 16384

noncomputable section

/-! # The kernel's result

After the two grid points the host adds the two blocks of each partial-sum array, squares, sums, and subtracts:
with `P d = 0 + ∑_b A (b, 0, d)` and `Q k d = 0 + ∑_b B (b, k, d)` the result is
`(0 + ∑_d P d · P d) − (0 + ∑_{k,d} Q k d · Q k d)`. -/

namespace Cert.KernelIdeal.Run

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Arrays Cert.KernelIdeal.Tail Cert.Spec

variable (m : (ℓ : Loc nD τ sig) → Buf (Elt Ideal) ℓ) (ρ : Dev nD → PrngReg)

/-- The two arguments as launched: the features and the assignment vector. -/
abbrev feat (c : Dev nD) : FVec Ideal S8192x256 .f32 := m ((c.tc : Thread nD τ).loc main_arg0)
abbrev asg (c : Dev nD) : IVec S8192 32 := m ((c.tc : Thread nD τ).loc main_arg1)

/-- The result buffer after the host operations that follow the kernel. -/
theorem tail_eq (c : Dev nD) :
    Pipeline.afterTail₀ cfgs (dats m) 0 (V0 m) [hostOps1] c main_v8 = tail (colpart m c) (clpart m c) := by
  unfold Pipeline.afterTail₀
  show StableHlo.after hostOps1 _ (Proc.devRef .tc main_v8) = _
  after_results
  have e2 : Pipeline.withArrays (cfgs 0).spec c (V0 m c) (fun w => (dats m 0 c).arrAt w (cfgs 0).N) (Proc.devRef .tc main_v1_0)
      = colpart m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v1_1)
      = clpart m c := (Pipeline.withArrays_arr spec0 launch0.win.arr_inj c _ _ 3).trans (final3 m c)
  rw [e2, e3]
  rfl

/-- The kernel's run: the result at `tail` of the two partial-sum arrays, the arguments unchanged. -/
theorem run : θ_run defs (onTc (τ := τ) (main (F := Ideal))) ⟨m, fun _ => 0, ρ⟩ (fun r => ∀ c : Dev nD,
      r.2.mem ((c.tc : Thread nD τ).loc main_v8) = tail (colpart m c) (clpart m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The one-hot indicator the host builds before the kernel: the assignment vector compared with the cluster numbers. -/
theorem V_main_v0 (c : Dev nD) :
    (V m c main_v0 : S8192x64.Idx → Elt Ideal .bf16)
      = uitofp (F := Ideal) .bf16 (cmpi .eq
          (broadcastInDim S8192x64 ![0, 1] bcast_S8192x1_S8192x64_0_1
            (broadcastInDim S8192x1 ![0] bcast_S8192_S8192x1_0 (m ((c.tc : Thread nD τ).loc main_arg1))))
          (broadcastInDim S8192x64 ![0, 1] bcast_S1x64_S8192x64_0_1 (iotaInDim S1x64 32 1))) := by
  show StableHlo.after hostOps0 (fun b => m (c, b)) (Proc.devRef .tc main_v0) = _
  after_results
  rfl

/-- Entry `(i, k)` of the indicator. -/
theorem oh_apply (c : Dev nD) (i : Fin 8192) (k : Fin 64) :
    (oh m c (ix2 i k) : EReal) = onehot (m ((c.tc : Thread nD τ).loc main_arg1)) i k := by
  show (V m c main_v0 : S8192x64.Idx → Elt Ideal .bf16) (ix2 i k) = _
  rw [V_main_v0]
  show (((IntOp.cmpi .eq _ _).toNat : ℝ) : EReal) = _
  unfold onehot
  have e1 : broadcastInDim S8192x64 ![0, 1] bcast_S8192x1_S8192x64_0_1
      (broadcastInDim S8192x1 ![0] bcast_S8192_S8192x1_0 (m ((c.tc : Thread nD τ).loc main_arg1))) (ix2 i k)
      = m ((c.tc : Thread nD τ).loc main_arg1) (ix1 i) :=
    (broadcastInDim_apply _ bcast_S8192x1_S8192x64_0_1 _ (ix2 i k) (ix2 i (0 : Fin 1)) (fun a => match a with
      | ⟨0, _⟩ => by show i.val = if (8192 : Nat) = 1 then 0 else i.val; rw [if_neg (by decide)]
      | ⟨1, _⟩ => by show 0 = if (1 : Nat) = 1 then 0 else k.val; rw [if_pos rfl])).trans
    (broadcastInDim_apply _ bcast_S8192_S8192x1_0 _ (ix2 i (0 : Fin 1)) (ix1 i) (fun a => match a with
      | ⟨0, _⟩ => by show i.val = if (8192 : Nat) = 1 then 0 else i.val; rw [if_neg (by decide)]))
  have e2 : broadcastInDim S8192x64 ![0, 1] bcast_S1x64_S8192x64_0_1 (iotaInDim S1x64 32 1) (ix2 i k)
      = BitVec.ofNat 32 k.val :=
    (broadcastInDim_apply _ bcast_S1x64_S8192x64_0_1 _ (ix2 i k) (ix2 (0 : Fin 1) k) (fun a => match a with
      | ⟨0, _⟩ => by show 0 = if (1 : Nat) = 1 then 0 else i.val; rw [if_pos rfl]
      | ⟨1, _⟩ => by show k.val = if (64 : Nat) = 1 then 0 else k.val; rw [if_neg (by decide)])).trans rfl
  rw [e1, e2]

/-- The kernel's result is `kerTotal` of the features and the indicator. -/
theorem result_apply (c : Dev nD) (i0 : S_.Idx) :
    tail (colpart m c) (clpart m c) i0 = kerTotal (fun i d => feat m c (ix2 i d)) (onehot (asg m c)) := by
  rw [tail_apply]
  unfold kerTotal
  have hV : xs m c = feat m c := V_main_arg0 m c
  have hx : ∀ (b : Fin 2) (u : Fin 1) (d : Fin 256), colpart m c (ix3 b u d)
      = 0 + ∑ r : Fin 4096, feat m c (ix2 (rowEquiv (b, r)) d) := fun b u d => by
    unfold colpart
    show 0 + ∑ r : Fin 4096, xs m c (ix2 (rowEquiv (b, r)) d) = _
    rw [hV]
  have hq : ∀ (b : Fin 2) (k : Fin 64) (d : Fin 256), clpart m c (ix3 b k d)
      = 0 + ∑ r : Fin 4096, onehot (asg m c) (rowEquiv (b, r)) k * feat m c (ix2 (rowEquiv (b, r)) d) := fun b k d => by
    unfold clpart
    show 0 + ∑ r : Fin 4096, (oh m c (ix2 (rowEquiv (b, r)) k) : EReal) * xs m c (ix2 (rowEquiv (b, r)) d) = _
    rw [hV]
    exact congrArg (0 + ·) (Finset.sum_congr rfl fun r _ => congrArg (· * feat m c (ix2 (rowEquiv (b, r)) d)) (oh_apply m c (rowEquiv (b, r)) k))
  simp only [hx, hq]

end Cert.KernelIdeal.Run
end
-- ==== Proof.lean ====
import proofs.«426112_j7507602833892_3_alg».proof.Defs
import proofs.«426112_j7507602833892_3_alg».proof.Proof.Gen.Kernel
import proofs.«426112_j7507602833892_3_alg».proof.Proof.Gen.Kernel.Skeleton
import proofs.«426112_j7507602833892_3_alg».proof.Proof.Gen.Kernel.Launch
import proofs.«426112_j7507602833892_3_alg».proof.Proof.Gen.Kernel.Points
import proofs.«426112_j7507602833892_3_alg».proof.Proof.Gen.Kernel.Frame
import proofs.«426112_j7507602833892_3_alg».proof.Proof.Gen.KernelIdeal
import proofs.«426112_j7507602833892_3_alg».proof.Proof.Gen.KernelIdeal.Skeleton
import proofs.«426112_j7507602833892_3_alg».proof.Proof.Gen.KernelIdeal.Launch
import proofs.«426112_j7507602833892_3_alg».proof.Proof.Gen.KernelIdeal.Points
import proofs.«426112_j7507602833892_3_alg».proof.Proof.Gen.KernelIdeal.Frame
import proofs.«426112_j7507602833892_3_alg».proof.Proof.Gen.ReferenceIdeal
import proofs.«426112_j7507602833892_3_alg».proof.Proof.Gen.Pre_finite_inputs
import proofs.«426112_j7507602833892_3_alg».proof.Proof.Gen.ReferenceIdeal.Run
import proofs.«426112_j7507602833892_3_alg».proof.Proof.Gen.ReferenceIdeal.Read
import proofs.«426112_j7507602833892_3_alg».proof.Proof.Spec
import proofs.«426112_j7507602833892_3_alg».proof.Proof.Finite
import proofs.«426112_j7507602833892_3_alg».proof.Proof.RefValue
import proofs.«426112_j7507602833892_3_alg».proof.Proof.Run
import Idealize.ShloMosaic.Adequacy
import Idealize.ShloMosaic.Init

/-! # A clustering loss computed two ways

With `F` the `8192 × 256` feature matrix and `H` the `8192 × 64` one-hot indicator of the cluster assignments, the
reference forms the Gram matrix `S = F Fᵀ` and returns `∑ᵢⱼ Sᵢⱼ − ∑ᵢₖ Hᵢₖ (S H)ᵢₖ`.  The kernel never forms `S`: for each of
two blocks of 4096 rows it accumulates the column sums of `F` and the matrix `Hᵀ F`, the host adds the two blocks, and the
result is `∑_d (∑ᵢ Fᵢ_d)² − ∑ₖ_d ((Hᵀ F)ₖ_d)²`.  The two agree because
`∑ᵢⱼ ∑_d Fᵢ_d Fⱼ_d = ∑_d (∑ᵢ Fᵢ_d)²` and `∑ᵢₖ Hᵢₖ ∑ⱼ (∑_d Fᵢ_d Fⱼ_d) Hⱼₖ = ∑ₖ_d (∑ᵢ Hᵢₖ Fᵢ_d)²`: rearrangements of finite sums of
products, valid because under the precondition every feature is a real number (and every indicator entry is 0 or 1). -/

noncomputable section

namespace Cert.Proof

open Idealize.ShloMosaic Idealize.ShloMosaic.ValueIdx Idealize.SL.Sem

/-- Both idealized programs run; the kernel's result is its total of the features and the indicator, the reference's
    its own, and the two totals agree on real features. -/
theorem algebraic : Cert.algebraic_KernelIdeal_ReferenceIdeal := by
  intro m ρ m' ρ' hpre hagree
  refine ⟨fun c => Cert.KernelIdeal.Tail.tail (Cert.KernelIdeal.Arrays.colpart m c) (Cert.KernelIdeal.Arrays.clpart m c),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2]
  funext i0
  rw [Cert.ReferenceIdeal.RefValue.result_apply]
  exact (Cert.Spec.totals_eq _ _
    (fun i d => Cert.Pre_finite_inputs.Finite.real_of_pre _ _ (hpre c) (ix2 i d))
    (Cert.Spec.onehot_real _)).symm.trans (Cert.KernelIdeal.Run.result_apply m c i0).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
